-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_
  bcast_S_S4096x32 : S_.BroadcastsInDim S4096x32 (![] : Fin 0 → Fin S4096x32.rank)
  reducesTo_S4096x32_S_d0_1 : S4096x32.ReducesTo [0, 1] S_
  bcast_S_S32 : S_.BroadcastsInDim S32 (![] : Fin 0 → Fin S32.rank)
  reducesTo_S32_S_d0 : S32.ReducesTo [0] S_
  bcast_S_S64x4096 : S_.BroadcastsInDim S64x4096 (![] : Fin 0 → Fin S64x4096.rank)
  reducesTo_S64x4096_S_d0_1 : S64x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S4096 .f32) (main_arg8 : FVec F S4096x128 .f32) (main_arg9 : FVec F S128 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x128 .f32 := Host.absf main_arg8
  let main_cst_14 : FVec F S_ .f32 := constant S_ .f32 0x7F800000#32
  let main_v40 : FVec F S4096x128 .f32 := broadcastInDim S4096x128 ![] bcast_S_S4096x128 main_cst_14
  let main_v41 : IVec S4096x128 1 := cmpf .olt main_v39 main_v40
  let main_c_15 : IVec S_ 1 := constantI S_ 1 1#1
  let main_v42 : IVec S_ 1 := (fun x v => Host.reduce IntOp.andi x v reducesTo_S4096x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S4096x32 .f32) (main_arg5 : FVec F S32 .f32) (main_arg6 : FVec F S64x4096 .f32) (main_arg7 : FVec F S4096 .f32) (main_arg8 : FVec F S4096x128 .f32) (main_arg9 : FVec F S128 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x4096 .f32 := Host.absf main_arg6
  let main_cst_10 : FVec F S_ .f32 := constant S_ .f32 0x7F800000#32
  let main_v30 : FVec F S64x4096 .f32 := broadcastInDim S64x4096 ![] bcast_S_S64x4096 main_cst_10
  let main_v31 : IVec S64x4096 1 := cmpf .olt main_v29 main_v30
  let main_c_11 : IVec S_ 1 := constantI S_ 1 1#1
  let main_v32 : IVec S_ 1 := (fun x v => Host.reduce IntOp.andi x v reducesTo_S64x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x32 .f32) (main_arg1 : FVec F S16384x32 .f32) (main_arg2 : FVec F S32x4096 .f32) (main_arg3 : FVec F S4096 .f32) (main_arg4 : FVec F S4096x32 .f32) (main_arg5 : FVec F S32 .f32) (main_arg6 : FVec F S64x4096 .f32) (main_arg7 : FVec F S4096 .f32) (main_arg8 : FVec F S4096x128 .f32) (main_arg9 : FVec F S128 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S32x4096 .f32 := Host.absf main_arg2
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S1x4096 : Shape := ⟨2, ![1, 4096]⟩
abbrev S1x32 : Shape := ⟨2, ![1, 32]⟩
abbrev S1x128 : Shape := ⟨2, ![1, 128]⟩
abbrev S16384x128 : Shape := ⟨2, ![16384, 128]⟩
abbrev S512x32 : Shape := ⟨2, ![512, 32]⟩
abbrev S512x128 : Shape := ⟨2, ![512, 128]⟩
abbrev S512x4096 : Shape := ⟨2, ![512, 4096]⟩

abbrev nBuf : Space → Nat
  | .hbm => 17
  | .vmem => 15
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S32x4096, .f32⟩
  | .hbm, ⟨11, _⟩ => ⟨S32x4096, .f32⟩
  | .hbm, ⟨12, _⟩ => ⟨S1x4096, .f32⟩
  | .hbm, ⟨13, _⟩ => ⟨S1x32, .f32⟩
  | .hbm, ⟨14, _⟩ => ⟨S1x4096, .f32⟩
  | .hbm, ⟨15, _⟩ => ⟨S1x128, .f32⟩
  | .hbm, ⟨16, _⟩ => ⟨S16384x128, .f32⟩
  | .local _ .vmem, ⟨0, _⟩ => ⟨S512x32, .f32⟩
  | .local _ .vmem, ⟨1, _⟩ => ⟨S512x32, .f32⟩
  | .local _ .vmem, ⟨2, _⟩ => ⟨S512x32, .f32⟩
  | .local _ .vmem, ⟨3, _⟩ => ⟨S512x32, .f32⟩
  | .local _ .vmem, ⟨4, _⟩ => ⟨S32x4096, .f32⟩
  | .local _ .vmem, ⟨5, _⟩ => ⟨S1x4096, .f32⟩
  | .local _ .vmem, ⟨6, _⟩ => ⟨S4096x32, .f32⟩
  | .local _ .vmem, ⟨7, _⟩ => ⟨S1x32, .f32⟩
  | .local _ .vmem, ⟨8, _⟩ => ⟨S32x4096, .f32⟩
  | .local _ .vmem, ⟨9, _⟩ => ⟨S32x4096, .f32⟩
  | .local _ .vmem, ⟨10, _⟩ => ⟨S1x4096, .f32⟩
  | .local _ .vmem, ⟨11, _⟩ => ⟨S4096x128, .f32⟩
  | .local _ .vmem, ⟨12, _⟩ => ⟨S1x128, .f32⟩
  | .local _ .vmem, ⟨13, _⟩ => ⟨S512x128, .f32⟩
  | .local _ .vmem, ⟨14, _⟩ => ⟨S512x128, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S64x4096_S32x4096_0_0 : S64x4096.Slices ![0, 0] S32x4096
  slices_S64x4096_S32x4096_32_0 : S64x4096.Slices ![32, 0] S32x4096
  shapeCasts_S4096_S1x4096 : S4096.ShapeCasts S1x4096
  shapeCasts_S32_S1x32 : S32.ShapeCasts S1x32
  shapeCasts_S128_S1x128 : S128.ShapeCasts S1x128
  inb_S32x4096_S32x4096_0_0 : ∀ a, (![0, 0] : Fin 2 → Nat) a + S32x4096.size a ≤ S32x4096.size a
  h_S32x4096 : 0 < S32x4096.numel
  bitsLt_bf16_f32 : FTy.bits .bf16 < FTy.bits .f32
  inb_S4096x32_S4096x32_0_0 : ∀ a, (![0, 0] : Fin 2 → Nat) a + S4096x32.size a ≤ S4096x32.size a
  h_S4096x32 : 0 < S4096x32.numel
  inb_S512x32_S512x32_0_0 : ∀ a, (![0, 0] : Fin 2 → Nat) a + S512x32.size a ≤ S512x32.size a
  h_S512x32 : 0 < S512x32.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  shapeCasts_S32x4096_S32x4096 : S32x4096.ShapeCasts S32x4096
  inb_S4096x128_S4096x128_0_0 : ∀ a, (![0, 0] : Fin 2 → Nat) a + S4096x128.size a ≤ S4096x128.size a
  h_S4096x128 : 0 < S4096x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  dot_S512x32_S32x4096_S512x4096_1_0_0_1_n_n_wf : DotDims.WF S512x32 S32x4096 S512x4096 [1] [0] [0] [1] [] []
  dot_S512x4096_S4096x32_S512x32_1_0_0_1_n_n_wf : DotDims.WF S512x4096 S4096x32 S512x32 [1] [0] [0] [1] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S16384x32.size a
  hwx0_0 : ∀ i : grid0.Coords, EltTy.bits .f32 = 32 ∨ (Rect.block (s := S16384x32) S512x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S16384x32.size a
  hwx0_1 : ∀ i : grid0.Coords, EltTy.bits .f32 = 32 ∨ (Rect.block (s := S16384x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x4096.size a ≤ S32x4096.size a
  hwx0_2 : ∀ i : grid0.Coords, EltTy.bits .f32 = 32 ∨ (Rect.block (s := S32x4096) S32x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x32.size a ≤ S4096x32.size a
  hwx0_4 : ∀ i : grid0.Coords, EltTy.bits .f32 = 32 ∨ (Rect.block (s := S4096x32) S4096x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x4096.size a ≤ S32x4096.size a
  hwx0_6 : ∀ i : grid0.Coords, EltTy.bits .f32 = 32 ∨ (Rect.block (s := S32x4096) S32x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x4096.size a ≤ S32x4096.size a
  hwx0_7 : ∀ i : grid0.Coords, EltTy.bits .f32 = 32 ∨ (Rect.block (s := S32x4096) S32x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4096x128.size a ≤ S4096x128.size a
  hwx0_9 : ∀ i : grid0.Coords, EltTy.bits .f32 = 32 ∨ (Rect.block (s := S4096x128) S4096x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x128.size a ≤ S16384x128.size a
  hwx0_11 : ∀ i : grid0.Coords, EltTy.bits .f32 = 32 ∨ (Rect.block (s := S16384x128) S512x128.size (cc0_transform_11 i) (hinb0_11 i)).WholeWords (EltTy.packing .f32)

variable [Facts₀]

def dot_S512x32_S32x4096_S512x4096_1_0_0_1_n_n : DotDims S512x32 S32x4096 S512x4096 where
  lhsContracting := [1]
  rhsContracting := [0]
  lhsNonContracting := [0]
  rhsNonContracting := [1]
  lhsBatch := []
  rhsBatch := []
  wf := dot_S512x32_S32x4096_S512x4096_1_0_0_1_n_n_wf
def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S32x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S32x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S4096x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S512x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S16384x4096 : Shape := ⟨2, ![16384, 4096]⟩
abbrev S1x4096 : Shape := ⟨2, ![1, 4096]⟩
abbrev S_ : Shape := ⟨0, ![]⟩
abbrev S1x32 : Shape := ⟨2, ![1, 32]⟩
abbrev S16384x64 : Shape := ⟨2, ![16384, 64]⟩
abbrev S16384x128 : Shape := ⟨2, ![16384, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S16384x4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x32, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S_, .f32⟩
  | .hbm, ⟨22, _⟩ => ⟨S16384x32, .f32⟩
  | .hbm, ⟨23, _⟩ => ⟨S16384x32, .f32⟩
  | .hbm, ⟨24, _⟩ => ⟨S16384x4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x32, .f32⟩
  | .hbm, ⟨32, _⟩ => ⟨S1x32, .f32⟩
  | .hbm, ⟨33, _⟩ => ⟨S16384x32, .f32⟩
  | .hbm, ⟨34, _⟩ => ⟨S16384x32, .f32⟩
  | .hbm, ⟨35, _⟩ => ⟨S_, .f32⟩
  | .hbm, ⟨36, _⟩ => ⟨S16384x32, .f32⟩
  | .hbm, ⟨37, _⟩ => ⟨S16384x32, .f32⟩
  | .hbm, ⟨38, _⟩ => ⟨S16384x64, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S16384x128, .f32⟩
  | .hbm, ⟨47, _⟩ => ⟨S1x128, .f32⟩
  | .hbm, ⟨48, _⟩ => ⟨S16384x128, .f32⟩
  | .hbm, ⟨49, _⟩ => ⟨S16384x128, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call3_cst : Ref sig .tc := ⟨.hbm, 35, rfl⟩
abbrev main_call3_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call4_cst : Ref sig .tc := ⟨.hbm, 43, rfl⟩
abbrev main_call4_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  concatenates_S16384x32_S16384x32_S16384x64_d1 : Shape.Concatenates [S16384x32, S16384x32] S16384x64 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x32_S32x4096_S16384x4096_1_0_0_1_n_n_wf : DotDims.WF S16384x32 S32x4096 S16384x4096 [1] [0] [0] [1] [] []
  dot_S16384x4096_S4096x32_S16384x32_1_0_0_1_n_n_wf : DotDims.WF S16384x4096 S4096x32 S16384x32 [1] [0] [0] [1] [] []
  dot_S16384x64_S64x4096_S16384x4096_1_0_0_1_n_n_wf : DotDims.WF S16384x64 S64x4096 S16384x4096 [1] [0] [0] [1] [] []
  dot_S16384x4096_S4096x128_S16384x128_1_0_0_1_n_n_wf : DotDims.WF S16384x4096 S4096x128 S16384x128 [1] [0] [0] [1] [] []

variable [Facts₀]

def dot_S16384x32_S32x4096_S16384x4096_1_0_0_1_n_n : DotDims S16384x32 S32x4096 S16384x4096 where
  lhsContracting := [1]
  rhsContracting := [0]
  lhsNonContracting := [0]
  rhsNonContracting := [1]
  lhsBatch := []
  rhsBatch := []
  wf := dot_S16384x32_S32x4096_S16384x4096_1_0_0_1_n_n_wf
def dot_S16384x4096_S4096x32_S16384x32_1_0_0_1_n_n : DotDims S16384x4096 S4096x32 S16384x32 where
  lhsContracting := [1]
  rhsContracting := [0]
  lhsNonContracting := [0]
  rhsNonContracting := [1]
  lhsBatch := []
  rhsBatch := []
  wf := dot_S16384x4096_S4096x32_S16384x32_1_0_0_1_n_n_wf
def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf
def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf

class Facts : Prop extends Facts₀ where

variable [Facts]
-- ==== Proof.Ops.lean ====
/-
  The kernel body's operations, each read at one index at the exact values (extended reals, exact operations).

  A matrix product into a zero accumulator is, at entry `(p, q)`, the sum over the contracted index `l` of
  `a (p, l) · b (l, q)`: the contraction index of the printed dimension numbers is its one coordinate, the left
  operand is read at (output row, `l`) and the right at (`l`, output column). `max` against the splat of the zero
  word is `max · 0`. A `[1, b]` bias row broadcast over `a` rows reads, at `(p, c)`, the row at `c`.
-/
import proofs.«155960_g11802570129985_cont_fleet_79_3_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Ops

open Cert.KernelIdeal Cert.KernelIdeal.Gen Idealize.ShloMosaic Idealize.ShloMosaic.ValueIdx

/-! ## [512, 32] × [32, 4096]: the first layer's product, and both halves of the joint layer's -/

theorem lhs_in_0 (i : S512x4096.Idx) (q : dot_S512x32_S32x4096_S512x4096_1_0_0_1_n_n.contr.Idx) :
    (dot_S512x32_S32x4096_S512x4096_1_0_0_1_n_n.lhsIdx i q 0).val = (i 0).val := by
  unfold DotDims.lhsIdx
  rw [dif_neg (show ¬(0 : Fin S512x32.rank) ∈ dot_S512x32_S32x4096_S512x4096_1_0_0_1_n_n.lhsBatch by decide), dif_pos (show (0 : Fin S512x32.rank) ∈ dot_S512x32_S32x4096_S512x4096_1_0_0_1_n_n.lhsNonContracting by decide)]
  rfl
theorem lhs_in_1 (i : S512x4096.Idx) (q : dot_S512x32_S32x4096_S512x4096_1_0_0_1_n_n.contr.Idx) :
    (dot_S512x32_S32x4096_S512x4096_1_0_0_1_n_n.lhsIdx i q 1).val = (q ⟨0, by decide⟩).val :=
  dot_S512x32_S32x4096_S512x4096_1_0_0_1_n_n.lhsIdx_val_of_single rfl i q
theorem rhs_in_0 (i : S512x4096.Idx) (q : dot_S512x32_S32x4096_S512x4096_1_0_0_1_n_n.contr.Idx) :
    (dot_S512x32_S32x4096_S512x4096_1_0_0_1_n_n.rhsIdx i q 0).val = (q ⟨0, by decide⟩).val :=
  dot_S512x32_S32x4096_S512x4096_1_0_0_1_n_n.rhsIdx_val_of_single rfl i q
theorem rhs_in_1 (i : S512x4096.Idx) (q : dot_S512x32_S32x4096_S512x4096_1_0_0_1_n_n.contr.Idx) :
    (dot_S512x32_S32x4096_S512x4096_1_0_0_1_n_n.rhsIdx i q 1).val = (i 1).val := by
  unfold DotDims.rhsIdx
  rw [dif_neg (show ¬(1 : Fin S32x4096.rank) ∈ dot_S512x32_S32x4096_S512x4096_1_0_0_1_n_n.rhsBatch by decide), dif_pos (show (1 : Fin S32x4096.rank) ∈ dot_S512x32_S32x4096_S512x4096_1_0_0_1_n_n.rhsNonContracting by decide)]
  rfl

/-- Entry `(p, q)` of a [512, 32] by [32, 4096] product into zero: `∑ l, a (p, l) · b (l, q)`. -/
theorem matmul_in_apply {φ₁ φ₂ : FTy} (a : FVec Ideal S512x32 φ₁) (b : FVec Ideal S32x4096 φ₂) (p : Fin 512) (q : Fin 4096) :
    matmul dot_S512x32_S32x4096_S512x4096_1_0_0_1_n_n none a b (constant S512x4096 .f32 0x00000000#32) (ix2 p q)
      = ∑ l : Fin 32, a (ix2 p l) * b (ix2 l q) := by
  refine (Ideal.matmul_constant_zero_apply dot_S512x32_S32x4096_S512x4096_1_0_0_1_n_n none a b (ix2 p q)).trans ?_
  rw [← Equiv.sum_comp (contrEquiv1 dot_S512x32_S32x4096_S512x4096_1_0_0_1_n_n 32 rfl rfl).symm]
  refine Finset.sum_congr rfl fun k _ => ?_
  have hk := contrEquiv1_symm_val dot_S512x32_S32x4096_S512x4096_1_0_0_1_n_n 32 rfl rfl k
  have el : dot_S512x32_S32x4096_S512x4096_1_0_0_1_n_n.lhsIdx (ix2 p q) ((contrEquiv1 dot_S512x32_S32x4096_S512x4096_1_0_0_1_n_n 32 rfl rfl).symm k) = ix2 p k := funext fun ax => Fin.ext (by
    match ax with
    | ⟨0, _⟩ => exact lhs_in_0 _ _
    | ⟨1, _⟩ => exact (lhs_in_1 _ _).trans hk)
  have er : dot_S512x32_S32x4096_S512x4096_1_0_0_1_n_n.rhsIdx (ix2 p q) ((contrEquiv1 dot_S512x32_S32x4096_S512x4096_1_0_0_1_n_n 32 rfl rfl).symm k) = ix2 k q := funext fun ax => Fin.ext (by
    match ax with
    | ⟨0, _⟩ => exact (rhs_in_0 _ _).trans hk
    | ⟨1, _⟩ => exact rhs_in_1 _ _)
  rw [el, er]

/-! ## [512, 4096] × [4096, 32]: the encoder's second layer -/

theorem lhs_mid_0 (i : S512x32.Idx) (q : dot_S512x4096_S4096x32_S512x32_1_0_0_1_n_n.contr.Idx) :
    (dot_S512x4096_S4096x32_S512x32_1_0_0_1_n_n.lhsIdx i q 0).val = (i 0).val := by
  unfold DotDims.lhsIdx
  rw [dif_neg (show ¬(0 : Fin S512x4096.rank) ∈ dot_S512x4096_S4096x32_S512x32_1_0_0_1_n_n.lhsBatch by decide), dif_pos (show (0 : Fin S512x4096.rank) ∈ dot_S512x4096_S4096x32_S512x32_1_0_0_1_n_n.lhsNonContracting by decide)]
  rfl
theorem lhs_mid_1 (i : S512x32.Idx) (q : dot_S512x4096_S4096x32_S512x32_1_0_0_1_n_n.contr.Idx) :
    (dot_S512x4096_S4096x32_S512x32_1_0_0_1_n_n.lhsIdx i q 1).val = (q ⟨0, by decide⟩).val :=
  dot_S512x4096_S4096x32_S512x32_1_0_0_1_n_n.lhsIdx_val_of_single rfl i q
theorem rhs_mid_0 (i : S512x32.Idx) (q : dot_S512x4096_S4096x32_S512x32_1_0_0_1_n_n.contr.Idx) :
    (dot_S512x4096_S4096x32_S512x32_1_0_0_1_n_n.rhsIdx i q 0).val = (q ⟨0, by decide⟩).val :=
  dot_S512x4096_S4096x32_S512x32_1_0_0_1_n_n.rhsIdx_val_of_single rfl i q
theorem rhs_mid_1 (i : S512x32.Idx) (q : dot_S512x4096_S4096x32_S512x32_1_0_0_1_n_n.contr.Idx) :
    (dot_S512x4096_S4096x32_S512x32_1_0_0_1_n_n.rhsIdx i q 1).val = (i 1).val := by
  unfold DotDims.rhsIdx
  rw [dif_neg (show ¬(1 : Fin S4096x32.rank) ∈ dot_S512x4096_S4096x32_S512x32_1_0_0_1_n_n.rhsBatch by decide), dif_pos (show (1 : Fin S4096x32.rank) ∈ dot_S512x4096_S4096x32_S512x32_1_0_0_1_n_n.rhsNonContracting by decide)]
  rfl

/-- Entry `(p, l)` of a [512, 4096] by [4096, 32] product into zero: `∑ q, a (p, q) · b (q, l)`. -/
theorem matmul_mid_apply {φ₁ φ₂ : FTy} (a : FVec Ideal S512x4096 φ₁) (b : FVec Ideal S4096x32 φ₂) (p : Fin 512) (l : Fin 32) :
    matmul dot_S512x4096_S4096x32_S512x32_1_0_0_1_n_n none a b (constant S512x32 .f32 0x00000000#32) (ix2 p l)
      = ∑ q : Fin 4096, a (ix2 p q) * b (ix2 q l) := by
  refine (Ideal.matmul_constant_zero_apply dot_S512x4096_S4096x32_S512x32_1_0_0_1_n_n none a b (ix2 p l)).trans ?_
  rw [← Equiv.sum_comp (contrEquiv1 dot_S512x4096_S4096x32_S512x32_1_0_0_1_n_n 4096 rfl rfl).symm]
  refine Finset.sum_congr rfl fun k _ => ?_
  have hk := contrEquiv1_symm_val dot_S512x4096_S4096x32_S512x32_1_0_0_1_n_n 4096 rfl rfl k
  have el : dot_S512x4096_S4096x32_S512x32_1_0_0_1_n_n.lhsIdx (ix2 p l) ((contrEquiv1 dot_S512x4096_S4096x32_S512x32_1_0_0_1_n_n 4096 rfl rfl).symm k) = ix2 p k := funext fun ax => Fin.ext (by
    match ax with
    | ⟨0, _⟩ => exact lhs_mid_0 _ _
    | ⟨1, _⟩ => exact (lhs_mid_1 _ _).trans hk)
  have er : dot_S512x4096_S4096x32_S512x32_1_0_0_1_n_n.rhsIdx (ix2 p l) ((contrEquiv1 dot_S512x4096_S4096x32_S512x32_1_0_0_1_n_n 4096 rfl rfl).symm k) = ix2 k l := funext fun ax => Fin.ext (by
    match ax with
    | ⟨0, _⟩ => exact (rhs_mid_0 _ _).trans hk
    | ⟨1, _⟩ => exact rhs_mid_1 _ _)
  rw [el, er]

/-! ## [512, 4096] × [4096, 128]: the output layer -/

theorem lhs_out_0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem lhs_out_1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
theorem rhs_out_0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
theorem rhs_out_1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- Entry `(p, j)` of a [512, 4096] by [4096, 128] product into zero: `∑ k, a (p, k) · b (k, j)`. -/
theorem matmul_out_apply {φ₁ φ₂ : FTy} (a : FVec Ideal S512x4096 φ₁) (b : FVec Ideal S4096x128 φ₂) (p : Fin 512) (j : Fin 128) :
    matmul dot_S512x4096_S4096x128_S512x128_1_0_0_1_n_n none a b (constant S512x128 .f32 0x00000000#32) (ix2 p j)
      = ∑ k : Fin 4096, a (ix2 p k) * b (ix2 k j) := by
  refine (Ideal.matmul_constant_zero_apply dot_S512x4096_S4096x128_S512x128_1_0_0_1_n_n none a b (ix2 p j)).trans ?_
  rw [← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  have el : dot_S512x4096_S4096x128_S512x128_1_0_0_1_n_n.lhsIdx (ix2 p j) ((contrEquiv1 dot_S512x4096_S4096x128_S512x128_1_0_0_1_n_n 4096 rfl rfl).symm k) = ix2 p k := funext fun ax => Fin.ext (by
    match ax with
    | ⟨0, _⟩ => exact lhs_out_0 _ _
    | ⟨1, _⟩ => exact (lhs_out_1 _ _).trans hk)
  have er : dot_S512x4096_S4096x128_S512x128_1_0_0_1_n_n.rhsIdx (ix2 p j) ((contrEquiv1 dot_S512x4096_S4096x128_S512x128_1_0_0_1_n_n 4096 rfl rfl).symm k) = ix2 k j := funext fun ax => Fin.ext (by
    match ax with
    | ⟨0, _⟩ => exact (rhs_out_0 _ _).trans hk
    | ⟨1, _⟩ => exact rhs_out_1 _ _)
  rw [el, er]

/-! ## `max · 0` and the bias row -/

/-- `max` against the splat of the zero word is `max · 0` on the extended reals. -/
theorem relu_apply {s : Shape} (a : FVec Ideal s .f32) (i : s.Idx) :
    maximumf a (broadcast s (Scalar.ofBits .f32 0x00000000#32)) i = max (a i) 0 := by
  show max (a i) (Ideal.ofBits .f32 0x00000000#32) = _
  rw [Ideal.ofBits_zero_f32]

/-- A `[1, b]` row, cast to its own shape and broadcast over `a` rows, reads the row at the column. -/
theorem biasRow_apply {a b : ℕ} (v : FVec Ideal ⟨2, ![1, b]⟩ .f32) (h₁ : (⟨2, ![1, b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ v h₁) h₂ (ix2 p c) = v (ix2 (0 : Fin 1) c) := by
  rw [shapeCast_self]
  exact broadcastTo_1b_ab_apply v h₂ p c

end Cert.KernelIdeal.Ops

end
-- ==== Proof.Spec.lean ====
/-
  The function both programs compute, written once over plain coordinates.

  A row `x` of 32 numbers goes through two affine layers, each followed by `max · 0`:
  `encode x = relu (relu (x·W1 + b1)·W2 + b2)`, again 32 numbers. The two encodings `es`, `en` of a state row and of
  the matching next-state row meet in a joint layer of 4096 units whose weight matrix `W3` has 64 rows: the first 32
  rows (`upper W3`) multiply `es`, the last 32 (`lower W3`) multiply `en`,
  `joint k = relu ((∑ l, es l · W3 l k + ∑ l, en l · W3 (32 + l) k) + b3 k)`,
  and a last affine layer gives the 128 outputs, `head j = ∑ k, joint k · W4 k j + b4 j`.
  Row `r` of the [16384, 128] result depends only on row `r` of the two [16384, 32] inputs.

  One program forms the joint layer's product as the two half sums above; the other lays `es` and `en` side by
  side as one row of 64 and takes one sum over 64 terms. A finite sum over `Fin 64` splits into its first and last 32
  terms in any additive commutative monoid (`sum_lo_hi`), the extended reals included, so no finiteness of the
  inputs is used anywhere.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- One affine layer followed by `max · 0`, for one input row: unit `j` is `max (∑ l, x l · W l j + b j) 0`. -/
def denseRelu {k d : ℕ} (W : Fin k → Fin d → EReal) (b : Fin d → EReal) (x : Fin k → EReal) : Fin d → EReal :=
  fun j => max (∑ l : Fin k, x l * W l j + b j) 0

/-- The encoder of one row: 32 → 4096 → 32, both layers with `max · 0`. -/
def encode (W1 : Fin 32 → Fin 4096 → EReal) (b1 : Fin 4096 → EReal) (W2 : Fin 4096 → Fin 32 → EReal)
    (b2 : Fin 32 → EReal) (x : Fin 32 → EReal) : Fin 32 → EReal :=
  denseRelu W2 b2 (denseRelu W1 b1 x)

/-- Row `l` of the upper half of a 64-row matrix. -/
def lo (l : Fin 32) : Fin 64 := ⟨l.val, Nat.lt_of_lt_of_le l.isLt (by decide)⟩
/-- Row `32 + l`: row `l` of the lower half. -/
def hi (l : Fin 32) : Fin 64 := ⟨32 + l.val, by have := l.isLt; omega⟩

/-- The upper 32 rows of a 64-row matrix, and the lower 32. -/
def upper (W3 : Fin 64 → Fin 4096 → EReal) : Fin 32 → Fin 4096 → EReal := fun l k => W3 (lo l) k
def lower (W3 : Fin 64 → Fin 4096 → EReal) : Fin 32 → Fin 4096 → EReal := fun l k => W3 (hi l) k

/-- The joint layer, over the two halves of its weight matrix: `W3a` against the first encoding, `W3b` against the
    second, the bias, then `max · 0`. -/
def joint (W3a W3b : Fin 32 → Fin 4096 → EReal) (b3 : Fin 4096 → EReal) (es en : Fin 32 → EReal) : Fin 4096 → EReal :=
  fun k => max ((∑ l : Fin 32, es l * W3a l k + ∑ l : Fin 32, en l * W3b l k) + b3 k) 0

/-- The output layer: affine, no `max`. -/
def head (W4 : Fin 4096 → Fin 128 → EReal) (b4 : Fin 128 → EReal) (h : Fin 4096 → EReal) : Fin 128 → EReal :=
  fun j => ∑ k : Fin 4096, h k * W4 k j + b4 j

/-- The whole network on one pair of rows, the joint weights given as their two halves. -/
def net (W1 : Fin 32 → Fin 4096 → EReal) (b1 : Fin 4096 → EReal) (W2 : Fin 4096 → Fin 32 → EReal) (b2 : Fin 32 → EReal)
    (W3a W3b : Fin 32 → Fin 4096 → EReal) (b3 : Fin 4096 → EReal) (W4 : Fin 4096 → Fin 128 → EReal) (b4 : Fin 128 → EReal)
    (xs xn : Fin 32 → EReal) : Fin 128 → EReal :=
  head W4 b4 (joint W3a W3b b3 (encode W1 b1 W2 b2 xs) (encode W1 b1 W2 b2 xn))

/-- A sum of 64 terms is the sum of its first 32 plus the sum of its last 32. -/
theorem sum_lo_hi (f : Fin 64 → EReal) : ∑ k : Fin 64, f k = ∑ l : Fin 32, f (lo l) + ∑ l : Fin 32, f (hi l) :=
  Fin.sum_univ_add (a := 32) (b := 32) f

/-- Two rows of 32 laid side by side as one row of 64. -/
def sideBySide (es en : Fin 32 → EReal) : Fin 64 → EReal :=
  fun k => if h : k.val < 32 then es ⟨k.val, h⟩ else en ⟨k.val - 32, by have := k.isLt; omega⟩

theorem sideBySide_lo (es en : Fin 32 → EReal) (l : Fin 32) : sideBySide es en (lo l) = es l := by
  unfold sideBySide lo
  rw [dif_pos l.isLt]

theorem sideBySide_hi (es en : Fin 32 → EReal) (l : Fin 32) : sideBySide es en (hi l) = en l := by
  unfold sideBySide hi
  rw [dif_neg (by show ¬ 32 + l.val < 32; omega)]
  exact congrArg en (Fin.ext (by show 32 + l.val - 32 = l.val; omega))

/-- The joint layer's product taken as ONE sum over the 64 entries of the side-by-side row is the two half sums. -/
theorem sum_sideBySide (W3 : Fin 64 → Fin 4096 → EReal) (es en : Fin 32 → EReal) (k : Fin 4096) :
    ∑ l : Fin 64, sideBySide es en l * W3 l k
      = ∑ l : Fin 32, es l * upper W3 l k + ∑ l : Fin 32, en l * lower W3 l k := by
  rw [sum_lo_hi]
  simp only [sideBySide_lo, sideBySide_hi, upper, lower]

/-! ## The result array -/

/-- The [16384, 128] result as ONE function of the ten argument arrays, index by index: entry `(r, j)` is output
    `j` of the network on row `r` of the two state arrays. -/
def G (xs xn : (⟨2, ![16384, 32]⟩ : Shape).Idx → EReal) (W1 : (⟨2, ![32, 4096]⟩ : Shape).Idx → EReal)
    (b1 : (⟨1, ![4096]⟩ : Shape).Idx → EReal) (W2 : (⟨2, ![4096, 32]⟩ : Shape).Idx → EReal)
    (b2 : (⟨1, ![32]⟩ : Shape).Idx → EReal) (W3 : (⟨2, ![64, 4096]⟩ : Shape).Idx → EReal)
    (b3 : (⟨1, ![4096]⟩ : Shape).Idx → EReal) (W4 : (⟨2, ![4096, 128]⟩ : Shape).Idx → EReal)
    (b4 : (⟨1, ![128]⟩ : Shape).Idx → EReal) : (⟨2, ![16384, 128]⟩ : Shape).Idx → EReal :=
  fun i => net (fun a b => W1 (ix2 a b)) (fun q => b1 (ix1 q)) (fun a b => W2 (ix2 a b)) (fun l => b2 (ix1 l))
    (upper fun a b => W3 (ix2 a b)) (lower fun a b => W3 (ix2 a b)) (fun q => b3 (ix1 q)) (fun a b => W4 (ix2 a b))
    (fun j => b4 (ix1 j))
    (fun l => xs (ix2 (⟨(i 0).val, (i 0).isLt⟩ : Fin 16384) l))
    (fun l => xn (ix2 (⟨(i 0).val, (i 0).isLt⟩ : Fin 16384) l))
    (⟨(i 1).val, (i 1).isLt⟩ : Fin 128)

end Cert.Spec

end
-- ==== Proof.Payload.lean ====
/-
  The kernel body's arithmetic on one block of 512 rows, read at one entry.

  The body's stored value is a pure term of the eleven loaded blocks: two blocks of 512 input rows and the nine
  parameter blocks. Read at entry `(p, j)` it is output `j` of the network on row `p` of the two row blocks: each
  matrix product is the sum over its contracted index, each `max` against the zero splat is `max · 0`, each bias is
  its one row at the column, and every change of float format is the identity at the exact values. Only row `p` of
  the two row blocks enters, so a block of the result is a block of one function of whole arrays
  (`block_eq_G`): where the row blocks are rows `r0 .. r0 + 511` of two arrays and the parameter blocks are the
  parameter arrays (the two joint-weight blocks being the upper and lower halves of one 64-row matrix).
-/
import proofs.«155960_g11802570129985_cont_fleet_79_3_alg».proof.Proof.Gen.KernelIdeal.Skeleton
import proofs.«155960_g11802570129985_cont_fleet_79_3_alg».proof.Proof.Ops
import proofs.«155960_g11802570129985_cont_fleet_79_3_alg».proof.Proof.Spec

noncomputable section

namespace Cert.KernelIdeal.Payload

open Cert.KernelIdeal Cert.KernelIdeal.Gen Cert.KernelIdeal.Ops Idealize.ShloMosaic Idealize.ShloMosaic.ValueIdx

/-! ## The layers on a block of rows -/

/-- The first layer on a block of 512 rows. -/
def hidden (w1 : FVec Ideal S32x4096 .f32) (b1 : FVec Ideal S1x4096 .f32) (x : FVec Ideal S512x32 .f32) : FVec Ideal S512x4096 .f32 :=
  maximumf (addf (matmul dot_S512x32_S32x4096_S512x4096_1_0_0_1_n_n none (truncf .bf16 x bitsLt_bf16_f32) (truncf .bf16 w1 bitsLt_bf16_f32) (constant S512x4096 .f32 0x00000000#32))
      (broadcastTo S512x4096 (shapeCast S1x4096 b1 shapeCasts_S1x4096_S1x4096) broadcasts_S1x4096_S512x4096))
    (broadcast S512x4096 (Scalar.ofBits .f32 0x00000000#32))

theorem hidden_apply (w1 : FVec Ideal S32x4096 .f32) (b1 : FVec Ideal S1x4096 .f32) (x : FVec Ideal S512x32 .f32) (p : Fin 512) (q : Fin 4096) :
    hidden w1 b1 x (ix2 p q)
      = Spec.denseRelu (fun a b => w1 (ix2 a b)) (fun c => b1 (ix2 (0 : Fin 1) c)) (fun a => x (ix2 p a)) q := by
  unfold hidden Spec.denseRelu
  refine (relu_apply _ _).trans ?_
  show max (matmul dot_S512x32_S32x4096_S512x4096_1_0_0_1_n_n none (truncf .bf16 x bitsLt_bf16_f32) (truncf .bf16 w1 bitsLt_bf16_f32) (constant S512x4096 .f32 0x00000000#32) (ix2 p q)
    + broadcastTo S512x4096 (shapeCast S1x4096 b1 shapeCasts_S1x4096_S1x4096) broadcasts_S1x4096_S512x4096 (ix2 p q)) 0 = _
  rw [matmul_in_apply, biasRow_apply]
  rfl

/-- The encoder's second layer before its `max`, on a block of 512 rows. -/
def encodedPre (w1 : FVec Ideal S32x4096 .f32) (b1 : FVec Ideal S1x4096 .f32) (w2 : FVec Ideal S4096x32 .f32) (b2 : FVec Ideal S1x32 .f32)
    (x : FVec Ideal S512x32 .f32) : FVec Ideal S512x32 .f32 :=
  addf (matmul dot_S512x4096_S4096x32_S512x32_1_0_0_1_n_n none (truncf .bf16 (hidden w1 b1 x) bitsLt_bf16_f32) (truncf .bf16 w2 bitsLt_bf16_f32) (constant S512x32 .f32 0x00000000#32))
    (broadcastTo S512x32 (shapeCast S1x32 b2 shapeCasts_S1x32_S1x32) broadcasts_S1x32_S512x32)

/-- The encoder on a block of 512 rows. -/
def encoded (w1 : FVec Ideal S32x4096 .f32) (b1 : FVec Ideal S1x4096 .f32) (w2 : FVec Ideal S4096x32 .f32) (b2 : FVec Ideal S1x32 .f32)
    (x : FVec Ideal S512x32 .f32) : FVec Ideal S512x32 .f32 :=
  maximumf (encodedPre w1 b1 w2 b2 x) (broadcast S512x32 (Scalar.ofBits .f32 0x00000000#32))

theorem encoded_apply (w1 : FVec Ideal S32x4096 .f32) (b1 : FVec Ideal S1x4096 .f32) (w2 : FVec Ideal S4096x32 .f32) (b2 : FVec Ideal S1x32 .f32)
    (x : FVec Ideal S512x32 .f32) (p : Fin 512) (l : Fin 32) :
    encoded w1 b1 w2 b2 x (ix2 p l)
      = Spec.encode (fun a b => w1 (ix2 a b)) (fun c => b1 (ix2 (0 : Fin 1) c)) (fun a b => w2 (ix2 a b)) (fun c => b2 (ix2 (0 : Fin 1) c))
          (fun a => x (ix2 p a)) l := by
  unfold encoded encodedPre Spec.encode
  refine (relu_apply _ _).trans ?_
  show max (matmul dot_S512x4096_S4096x32_S512x32_1_0_0_1_n_n none (truncf .bf16 (hidden w1 b1 x) bitsLt_bf16_f32) (truncf .bf16 w2 bitsLt_bf16_f32) (constant S512x32 .f32 0x00000000#32) (ix2 p l)
    + broadcastTo S512x32 (shapeCast S1x32 b2 shapeCasts_S1x32_S1x32) broadcasts_S1x32_S512x32 (ix2 p l)) 0 = _
  rw [matmul_mid_apply, biasRow_apply]
  show max (∑ q : Fin 4096, hidden w1 b1 x (ix2 p q) * w2 (ix2 q l) + b2 (ix2 (0 : Fin 1) l)) 0 = _
  simp only [hidden_apply]
  rfl

/-- The joint layer on a block of 512 rows, from the two blocks of encodings and the two halves of the joint weights. -/
def jointVec (es en : FVec Ideal S512x32 .f32) (w3a w3b : FVec Ideal S32x4096 .f32) (b3 : FVec Ideal S1x4096 .f32) : FVec Ideal S512x4096 .f32 :=
  maximumf (addf (addf
        (matmul dot_S512x32_S32x4096_S512x4096_1_0_0_1_n_n none (truncf .bf16 es bitsLt_bf16_f32) (truncf .bf16 (shapeCast S32x4096 w3a shapeCasts_S32x4096_S32x4096) bitsLt_bf16_f32) (constant S512x4096 .f32 0x00000000#32))
        (matmul dot_S512x32_S32x4096_S512x4096_1_0_0_1_n_n none (truncf .bf16 en bitsLt_bf16_f32) (truncf .bf16 (shapeCast S32x4096 w3b shapeCasts_S32x4096_S32x4096) bitsLt_bf16_f32) (constant S512x4096 .f32 0x00000000#32)))
      (broadcastTo S512x4096 (shapeCast S1x4096 b3 shapeCasts_S1x4096_S1x4096) broadcasts_S1x4096_S512x4096))
    (broadcast S512x4096 (Scalar.ofBits .f32 0x00000000#32))

theorem jointVec_apply (es en : FVec Ideal S512x32 .f32) (w3a w3b : FVec Ideal S32x4096 .f32) (b3 : FVec Ideal S1x4096 .f32) (p : Fin 512) (k : Fin 4096) :
    jointVec es en w3a w3b b3 (ix2 p k)
      = Spec.joint (fun a b => w3a (ix2 a b)) (fun a b => w3b (ix2 a b)) (fun c => b3 (ix2 (0 : Fin 1) c))
          (fun l => es (ix2 p l)) (fun l => en (ix2 p l)) k := by
  unfold jointVec Spec.joint
  rw [shapeCast_self, shapeCast_self]
  refine (relu_apply _ _).trans ?_
  show max ((matmul dot_S512x32_S32x4096_S512x4096_1_0_0_1_n_n none (truncf .bf16 es bitsLt_bf16_f32) (truncf .bf16 w3a bitsLt_bf16_f32) (constant S512x4096 .f32 0x00000000#32) (ix2 p k)
      + matmul dot_S512x32_S32x4096_S512x4096_1_0_0_1_n_n none (truncf .bf16 en bitsLt_bf16_f32) (truncf .bf16 w3b bitsLt_bf16_f32) (constant S512x4096 .f32 0x00000000#32) (ix2 p k))
    + broadcastTo S512x4096 (shapeCast S1x4096 b3 shapeCasts_S1x4096_S1x4096) broadcasts_S1x4096_S512x4096 (ix2 p k)) 0 = _
  rw [matmul_in_apply, matmul_in_apply, biasRow_apply]
  rfl

/-! ## The stored block -/

/-- The body's stored value, over its two intermediate values, is the output layer on the joint layer. -/
theorem stored_eq (v20 v35 : FVec Ideal S512x32 .f32) (w3a w3b : FVec Ideal S32x4096 .f32) (b3 : FVec Ideal S1x4096 .f32)
    (w4 : FVec Ideal S4096x128 .f32) (b4 : FVec Ideal S1x128 .f32) :
    k0_pay1 v20 v35 w3a w3b b3 w4 b4
      = addf (matmul dot_S512x4096_S4096x128_S512x128_1_0_0_1_n_n none
            (truncf .bf16 (jointVec v20 (maximumf v35 (broadcast S512x32 (Scalar.ofBits .f32 0x00000000#32))) w3a w3b b3) bitsLt_bf16_f32)
            (truncf .bf16 w4 bitsLt_bf16_f32) (constant S512x128 .f32 0x00000000#32))
          (broadcastTo S512x128 (shapeCast S1x128 b4 shapeCasts_S1x128_S1x128) broadcasts_S1x128_S512x128) := rfl

/-- The two intermediate values are the encoder on the state block, and the encoder before its last `max` on the
    next-state block. -/
theorem first_eq (w1 : FVec Ideal S32x4096 .f32) (w2 : FVec Ideal S4096x32 .f32) (x : FVec Ideal S512x32 .f32) (b1 : FVec Ideal S1x4096 .f32)
    (b2 : FVec Ideal S1x32 .f32) : k0_pay4 w1 w2 x b1 b2 = encoded w1 b1 w2 b2 x := rfl
theorem second_eq (w1 : FVec Ideal S32x4096 .f32) (w2 : FVec Ideal S4096x32 .f32) (x : FVec Ideal S512x32 .f32) (b1 : FVec Ideal S1x4096 .f32)
    (b2 : FVec Ideal S1x32 .f32) : k0_pay5 w1 w2 x b1 b2 = encodedPre w1 b1 w2 b2 x := rfl

/-- Entry `(p, j)` of the stored block: output `j` of the network on row `p` of the two row blocks. -/
theorem block_apply (x0 x1 : FVec Ideal S512x32 .f32) (w1 : FVec Ideal S32x4096 .f32) (b1 : FVec Ideal S1x4096 .f32)
    (w2 : FVec Ideal S4096x32 .f32) (b2 : FVec Ideal S1x32 .f32) (w3a w3b : FVec Ideal S32x4096 .f32) (b3 : FVec Ideal S1x4096 .f32)
    (w4 : FVec Ideal S4096x128 .f32) (b4 : FVec Ideal S1x128 .f32) (p : Fin 512) (j : Fin 128) :
    k0_pay1 (F := Ideal) (k0_pay4 (F := Ideal) w1 w2 x0 b1 b2) (k0_pay5 (F := Ideal) w1 w2 x1 b1 b2) w3a w3b b3 w4 b4 (ix2 p j)
      = Spec.net (fun a b => w1 (ix2 a b)) (fun c => b1 (ix2 (0 : Fin 1) c)) (fun a b => w2 (ix2 a b)) (fun c => b2 (ix2 (0 : Fin 1) c))
          (fun a b => w3a (ix2 a b)) (fun a b => w3b (ix2 a b)) (fun c => b3 (ix2 (0 : Fin 1) c))
          (fun a b => w4 (ix2 a b)) (fun c => b4 (ix2 (0 : Fin 1) c))
          (fun l => x0 (ix2 p l)) (fun l => x1 (ix2 p l)) j := by
  rw [stored_eq, first_eq, second_eq]
  show matmul dot_S512x4096_S4096x128_S512x128_1_0_0_1_n_n none _ _ (constant S512x128 .f32 0x00000000#32) (ix2 p j)
    + broadcastTo S512x128 (shapeCast S1x128 b4 shapeCasts_S1x128_S1x128) broadcasts_S1x128_S512x128 (ix2 p j) = _
  rw [matmul_out_apply, biasRow_apply]
  unfold Spec.net Spec.head
  show ∑ k : Fin 4096, jointVec (encoded w1 b1 w2 b2 x0) (encoded w1 b1 w2 b2 x1) w3a w3b b3 (ix2 p k) * w4 (ix2 k j) + b4 (ix2 (0 : Fin 1) j) = _
  simp only [jointVec_apply, encoded_apply]

/-- A block of the stored value is a block of ONE function of whole arrays. Where the two row blocks hold rows
    `row p` of two [16384, 32] arrays and the nine parameter blocks hold the parameter arrays — the bias blocks
    the bias vectors as one row, the two joint-weight blocks the upper and the lower half of one [64, 4096] matrix —
    entry `(p, j)` of the stored block is `Spec.G` of the arrays at `(row p, j)`. -/
theorem block_eq_G
    (xs xn : (⟨2, ![16384, 32]⟩ : Shape).Idx → EReal) (W1 : (⟨2, ![32, 4096]⟩ : Shape).Idx → EReal)
    (B1 : (⟨1, ![4096]⟩ : Shape).Idx → EReal) (W2 : (⟨2, ![4096, 32]⟩ : Shape).Idx → EReal)
    (B2 : (⟨1, ![32]⟩ : Shape).Idx → EReal) (W3 : (⟨2, ![64, 4096]⟩ : Shape).Idx → EReal)
    (B3 : (⟨1, ![4096]⟩ : Shape).Idx → EReal) (W4 : (⟨2, ![4096, 128]⟩ : Shape).Idx → EReal)
    (B4 : (⟨1, ![128]⟩ : Shape).Idx → EReal)
    (x0 x1 : FVec Ideal S512x32 .f32) (w1 : FVec Ideal S32x4096 .f32) (b1 : FVec Ideal S1x4096 .f32)
    (w2 : FVec Ideal S4096x32 .f32) (b2 : FVec Ideal S1x32 .f32) (w3a w3b : FVec Ideal S32x4096 .f32) (b3 : FVec Ideal S1x4096 .f32)
    (w4 : FVec Ideal S4096x128 .f32) (b4 : FVec Ideal S1x128 .f32) (row : Fin 512 → Fin 16384)
    (h0 : ∀ (p : Fin 512) (l : Fin 32), x0 (ix2 p l) = xs (ix2 (row p) l))
    (h1 : ∀ (p : Fin 512) (l : Fin 32), x1 (ix2 p l) = xn (ix2 (row p) l))
    (h2 : ∀ (a : Fin 32) (b : Fin 4096), w1 (ix2 a b) = W1 (ix2 a b))
    (h3 : ∀ c : Fin 4096, b1 (ix2 (0 : Fin 1) c) = B1 (ix1 c))
    (h4 : ∀ (a : Fin 4096) (b : Fin 32), w2 (ix2 a b) = W2 (ix2 a b))
    (h5 : ∀ c : Fin 32, b2 (ix2 (0 : Fin 1) c) = B2 (ix1 c))
    (h6 : ∀ (a : Fin 32) (b : Fin 4096), w3a (ix2 a b) = W3 (ix2 (Spec.lo a) b))
    (h7 : ∀ (a : Fin 32) (b : Fin 4096), w3b (ix2 a b) = W3 (ix2 (Spec.hi a) b))
    (h8 : ∀ c : Fin 4096, b3 (ix2 (0 : Fin 1) c) = B3 (ix1 c))
    (h9 : ∀ (a : Fin 4096) (b : Fin 128), w4 (ix2 a b) = W4 (ix2 a b))
    (h10 : ∀ c : Fin 128, b4 (ix2 (0 : Fin 1) c) = B4 (ix1 c))
    (p : Fin 512) (j : Fin 128) :
    k0_pay1 (F := Ideal) (k0_pay4 (F := Ideal) w1 w2 x0 b1 b2) (k0_pay5 (F := Ideal) w1 w2 x1 b1 b2) w3a w3b b3 w4 b4 (ix2 p j)
      = Spec.G xs xn W1 B1 W2 B2 W3 B3 W4 B4 (ix2 (row p) j) := by
  rw [block_apply]
  simp only [h0, h1, h2, h3, h4, h5, h6, h7, h8, h9, h10]
  rfl

end Cert.KernelIdeal.Payload

end
-- ==== Proof.KernelValue.lean ====
/-
  The kernel's result array as one function of its ten argument arrays.

  The grid has 32 points; point `t` works on rows `512 t .. 512 t + 511`. Its two row windows hold those rows of
  the two state arrays; the other nine input windows hold their whole arrays at every point (block index zero on
  both axes). Six of those arrays are written by the host before the launch: the upper and the lower 32 rows of the
  [64, 4096] joint weights as two [32, 4096] arrays, and the four bias vectors laid out as one row each. The output
  window's block at `t` is rows `512 t .. 512 t + 511` of the result, written back whole at every point, and the
  32 blocks tile the result (row `r` lies in block `r / 512`). With the body's stored block read entry by entry
  (the payload module), what point `t` writes back is block `t` of `Spec.G` of the argument arrays, so the
  result array after the run is `Spec.G` of them.
-/
import proofs.«155960_g11802570129985_cont_fleet_79_3_alg».proof.Proof.Gen.KernelIdeal.Value
import proofs.«155960_g11802570129985_cont_fleet_79_3_alg».proof.Proof.Payload
import Idealize.ShloMosaic.Lib.StableHlo.Run
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- What the [16384, 128] result array ends holding: `Spec.G` of the ten argument arrays as launched. -/
abbrev result (c : Dev nD) : Buf (Elt Ideal) ((c : Thread nD τ).loc main_v6) :=
  Spec.G (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9))

/-! ## The arrays the host writes before the launch, read at an index -/

/-- The first sliced array is the upper 32 rows of the joint weights. -/
theorem V_upper (c : Dev nD) (l : Fin 32) (k : Fin 4096) :
    (V m c main_v0 : S32x4096.Idx → EReal) (ix2 l k) = (m ((c : Thread nD τ).loc main_arg6)) (ix2 (Spec.lo l) k) := by
  have e : (V m c main_v0 : S32x4096.Idx → EReal)
      = extractStridedSlice S32x4096 ![0, 0] (m ((c : Thread nD τ).loc main_arg6)) slices_S64x4096_S32x4096_0_0 := by
    dsimp only [V, hostOps0]; after_results
  rw [e]
  exact extractStridedSlice_apply _ _ _ (ix2 l k) (ix2 (Spec.lo l) k) (fun a => match a with
    | ⟨0, _⟩ => by show l.val = 0 + l.val; omega
    | ⟨1, _⟩ => by show k.val = 0 + k.val; omega)

/-- The second is the lower 32 rows. -/
theorem V_lower (c : Dev nD) (l : Fin 32) (k : Fin 4096) :
    (V m c main_v1 : S32x4096.Idx → EReal) (ix2 l k) = (m ((c : Thread nD τ).loc main_arg6)) (ix2 (Spec.hi l) k) := by
  have e : (V m c main_v1 : S32x4096.Idx → EReal)
      = extractStridedSlice S32x4096 ![32, 0] (m ((c : Thread nD τ).loc main_arg6)) slices_S64x4096_S32x4096_32_0 := by
    dsimp only [V, hostOps0]; after_results
  rw [e]
  exact extractStridedSlice_apply _ _ _ (ix2 l k) (ix2 (Spec.hi l) k) (fun a => match a with
    | ⟨0, _⟩ => by show 32 + l.val = 32 + l.val; rfl
    | ⟨1, _⟩ => by show k.val = 0 + k.val; omega)

/-- Each bias vector laid out as one row reads the vector at the column. -/
theorem V_bias1 (c : Dev nD) (q : Fin 4096) :
    (V m c main_v2 : S1x4096.Idx → EReal) (ix2 (0 : Fin 1) q) = (m ((c : Thread nD τ).loc main_arg3)) (ix1 q) := by
  have e : (V m c main_v2 : S1x4096.Idx → EReal)
      = fun i => shapeCast S1x4096 (m ((c : Thread nD τ).loc main_arg3)) shapeCasts_S4096_S1x4096 i := by
    dsimp only [V, hostOps0]; after_results; rfl
  rw [e]
  exact shapeCast_a_1a_apply _ _ 0 q

theorem V_bias2 (c : Dev nD) (q : Fin 32) :
    (V m c main_v3 : S1x32.Idx → EReal) (ix2 (0 : Fin 1) q) = (m ((c : Thread nD τ).loc main_arg5)) (ix1 q) := by
  have e : (V m c main_v3 : S1x32.Idx → EReal)
      = fun i => shapeCast S1x32 (m ((c : Thread nD τ).loc main_arg5)) shapeCasts_S32_S1x32 i := by
    dsimp only [V, hostOps0]; after_results; rfl
  rw [e]
  exact shapeCast_a_1a_apply _ _ 0 q

theorem V_bias3 (c : Dev nD) (q : Fin 4096) :
    (V m c main_v4 : S1x4096.Idx → EReal) (ix2 (0 : Fin 1) q) = (m ((c : Thread nD τ).loc main_arg7)) (ix1 q) := by
  have e : (V m c main_v4 : S1x4096.Idx → EReal)
      = fun i => shapeCast S1x4096 (m ((c : Thread nD τ).loc main_arg7)) shapeCasts_S4096_S1x4096 i := by
    dsimp only [V, hostOps0]; after_results; rfl
  rw [e]
  exact shapeCast_a_1a_apply _ _ 0 q

theorem V_bias4 (c : Dev nD) (q : Fin 128) :
    (V m c main_v5 : S1x128.Idx → EReal) (ix2 (0 : Fin 1) q) = (m ((c : Thread nD τ).loc main_arg9)) (ix1 q) := by
  have e : (V m c main_v5 : S1x128.Idx → EReal)
      = fun i => shapeCast S1x128 (m ((c : Thread nD τ).loc main_arg9)) shapeCasts_S128_S1x128 i := by
    dsimp only [V, hostOps0]; after_results; rfl
  rw [e]
  exact shapeCast_a_1a_apply _ _ 0 q

/-! ## The windows' blocks at a point -/

/-- The printed index maps over the 32 points: the two row windows and the output window are at block row `t`,
    every other window at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

/-- Row `p` of point `t`'s blocks is row `512 t + p` of the arrays. -/
def rowOf (t : Fin cfg0.N) (p : Fin 512) : Fin 16384 :=
  ⟨t.val * 512 + p.val, by have := t.isLt; have hN : cfg0.N = 32 := N_0; have := p.isLt; omega⟩

theorem rows0 (c : Dev nD) (t : Fin cfg0.N) (p : Fin 512) (l : Fin 32) :
    (iblk m c 0 t : FVec Ideal S512x32 .f32) (ix2 p l) = (m ((c : Thread nD τ).loc main_arg0)) (ix2 (rowOf t p) l) := by
  unfold iblk
  rw [View.read_apply]
  show V m c main_arg0 _ = _
  rw [V_main_arg0]
  refine congrArg _ (funext fun a => Fin.ext ?_)
  match a with
  | ⟨0, _⟩ => show win0_0.index t (0 : Fin 2) * 512 + 1 * p.val = t.val * 512 + p.val; rw [(idx_facts t).1]; omega
  | ⟨1, _⟩ => show win0_0.index t (1 : Fin 2) * 32 + 1 * l.val = l.val; rw [(idx_facts t).2.1]; omega

theorem rows1 (c : Dev nD) (t : Fin cfg0.N) (p : Fin 512) (l : Fin 32) :
    (iblk m c 1 t : FVec Ideal S512x32 .f32) (ix2 p l) = (m ((c : Thread nD τ).loc main_arg1)) (ix2 (rowOf t p) l) := by
  unfold iblk
  rw [View.read_apply]
  show V m c main_arg1 _ = _
  rw [V_main_arg1]
  refine congrArg _ (funext fun a => Fin.ext ?_)
  match a with
  | ⟨0, _⟩ => show win0_1.index t (0 : Fin 2) * 512 + 1 * p.val = t.val * 512 + p.val; rw [(idx_facts t).2.2.1]; omega
  | ⟨1, _⟩ => show win0_1.index t (1 : Fin 2) * 32 + 1 * l.val = l.val; rw [(idx_facts t).2.2.2.1]; omega

/-! Every other input window holds its whole array at every point: its block index is (0, 0). -/

/-- A function on a two-axis index type read at an index whose coordinates are `i0 · R + 1 · a` and `i1 · C + 1 · b`
    with both block indices `i0`, `i1` zero is the function at `(a, b)`. -/
theorem at_origin {R C : ℕ} (f : (⟨2, ![R, C]⟩ : Shape).Idx → EReal) (e : (⟨2, ![R, C]⟩ : Shape).Idx) (a : Fin R) (b : Fin C)
    (i0 i1 : ℕ) (h0 : i0 = 0) (h1 : i1 = 0) (he0 : (e 0).val = i0 * R + 1 * a.val) (he1 : (e 1).val = i1 * C + 1 * b.val) :
    f e = f (ix2 a b) := by
  refine congrArg f (funext fun ax => Fin.ext ?_)
  match ax with
  | ⟨0, _⟩ => show (e 0).val = a.val; rw [he0, h0]; omega
  | ⟨1, _⟩ => show (e 1).val = b.val; rw [he1, h1]; omega

/-- Window 2: the first layer's weights. -/
theorem blk2 (c : Dev nD) (t : Fin cfg0.N) (a : Fin 32) (b : Fin 4096) :
    (iblk m c 2 t : FVec Ideal S32x4096 .f32) (ix2 a b) = (V m c main_arg2 : S32x4096.Idx → EReal) (ix2 a b) := by
  unfold iblk
  rw [View.read_apply]
  exact at_origin (V m c main_arg2) _ a b _ _ (idx_facts t).2.2.2.2.1 (idx_facts t).2.2.2.2.2.1 rfl rfl

/-- Window 3: the first bias as one row. -/
theorem blk3 (c : Dev nD) (t : Fin cfg0.N) (a : Fin 1) (b : Fin 4096) :
    (iblk m c 3 t : FVec Ideal S1x4096 .f32) (ix2 a b) = (V m c main_v2 : S1x4096.Idx → EReal) (ix2 a b) := by
  unfold iblk
  rw [View.read_apply]
  exact at_origin (V m c main_v2) _ a b _ _ (idx_facts t).2.2.2.2.2.2.1 (idx_facts t).2.2.2.2.2.2.2.1 rfl rfl

/-- Window 4: the second layer's weights. -/
theorem blk4 (c : Dev nD) (t : Fin cfg0.N) (a : Fin 4096) (b : Fin 32) :
    (iblk m c 4 t : FVec Ideal S4096x32 .f32) (ix2 a b) = (V m c main_arg4 : S4096x32.Idx → EReal) (ix2 a b) := by
  unfold iblk
  rw [View.read_apply]
  exact at_origin (V m c main_arg4) _ a b _ _ (idx_facts t).2.2.2.2.2.2.2.2.1 (idx_facts t).2.2.2.2.2.2.2.2.2.1 rfl rfl

/-- Window 5: the second bias as one row. -/
theorem blk5 (c : Dev nD) (t : Fin cfg0.N) (a : Fin 1) (b : Fin 32) :
    (iblk m c 5 t : FVec Ideal S1x32 .f32) (ix2 a b) = (V m c main_v3 : S1x32.Idx → EReal) (ix2 a b) := by
  unfold iblk
  rw [View.read_apply]
  exact at_origin (V m c main_v3) _ a b _ _ (idx_facts t).2.2.2.2.2.2.2.2.2.2.1 (idx_facts t).2.2.2.2.2.2.2.2.2.2.2.1 rfl rfl

/-- Window 6: the upper half of the joint weights. -/
theorem blk6 (c : Dev nD) (t : Fin cfg0.N) (a : Fin 32) (b : Fin 4096) :
    (iblk m c 6 t : FVec Ideal S32x4096 .f32) (ix2 a b) = (V m c main_v0 : S32x4096.Idx → EReal) (ix2 a b) := by
  unfold iblk
  rw [View.read_apply]
  exact at_origin (V m c main_v0) _ a b _ _ (idx_facts t).2.2.2.2.2.2.2.2.2.2.2.2.1 (idx_facts t).2.2.2.2.2.2.2.2.2.2.2.2.2.1 rfl rfl

/-- Window 7: the lower half of the joint weights. -/
theorem blk7 (c : Dev nD) (t : Fin cfg0.N) (a : Fin 32) (b : Fin 4096) :
    (iblk m c 7 t : FVec Ideal S32x4096 .f32) (ix2 a b) = (V m c main_v1 : S32x4096.Idx → EReal) (ix2 a b) := by
  unfold iblk
  rw [View.read_apply]
  exact at_origin (V m c main_v1) _ a b _ _ (idx_facts t).2.2.2.2.2.2.2.2.2.2.2.2.2.2.1 (idx_facts t).2.2.2.2.2.2.2.2.2.2.2.2.2.2.2.1 rfl rfl

/-- Window 8: the joint bias as one row. -/
theorem blk8 (c : Dev nD) (t : Fin cfg0.N) (a : Fin 1) (b : Fin 4096) :
    (iblk m c 8 t : FVec Ideal S1x4096 .f32) (ix2 a b) = (V m c main_v4 : S1x4096.Idx → EReal) (ix2 a b) := by
  unfold iblk
  rw [View.read_apply]
  exact at_origin (V m c main_v4) _ a b _ _ (idx_facts t).2.2.2.2.2.2.2.2.2.2.2.2.2.2.2.2.1 (idx_facts t).2.2.2.2.2.2.2.2.2.2.2.2.2.2.2.2.2.1 rfl rfl

/-- Window 9: the output layer's weights. -/
theorem blk9 (c : Dev nD) (t : Fin cfg0.N) (a : Fin 4096) (b : Fin 128) :
    (iblk m c 9 t : FVec Ideal S4096x128 .f32) (ix2 a b) = (V m c main_arg8 : S4096x128.Idx → EReal) (ix2 a b) := by
  unfold iblk
  rw [View.read_apply]
  exact at_origin (V m c main_arg8) _ a b _ _ (idx_facts t).2.2.2.2.2.2.2.2.2.2.2.2.2.2.2.2.2.2.1 (idx_facts t).2.2.2.2.2.2.2.2.2.2.2.2.2.2.2.2.2.2.2.1 rfl rfl

/-- Window 10: the output bias as one row. -/
theorem blk10 (c : Dev nD) (t : Fin cfg0.N) (a : Fin 1) (b : Fin 128) :
    (iblk m c 10 t : FVec Ideal S1x128 .f32) (ix2 a b) = (V m c main_v5 : S1x128.Idx → EReal) (ix2 a b) := by
  unfold iblk
  rw [View.read_apply]
  exact at_origin (V m c main_v5) _ a b _ _ (idx_facts t).2.2.2.2.2.2.2.2.2.2.2.2.2.2.2.2.2.2.2.2.1 (idx_facts t).2.2.2.2.2.2.2.2.2.2.2.2.2.2.2.2.2.2.2.2.2.1 rfl rfl

/-! ## What a point writes back -/

theorem hz : (![0, 0] : Fin 2 → Nat) = fun _ => 0 := funext fun a => by fin_cases a <;> rfl

/-- An entry of the output window's block at `t` sits in the result array at row `512 t + p`, same column. -/
theorem emb11 (t : Fin cfg0.N) (p : Fin 512) (j : Fin 128) :
    ((cfg0.win 11).blk t).view.emb (ix2 p j) = (ix2 (rowOf t p) j : S16384x128.Idx) := by
  refine funext fun ax => Fin.ext ?_
  match ax with
  | ⟨0, _⟩ => show win0_11.index t (0 : Fin 2) * 512 + 1 * p.val = t.val * 512 + p.val; rw [(idx_facts t).2.2.2.2.2.2.2.2.2.2.2.2.2.2.2.2.2.2.2.2.2.2.1]; omega
  | ⟨1, _⟩ => show win0_11.index t (1 : Fin 2) * 128 + 1 * j.val = j.val; rw [(idx_facts t).2.2.2.2.2.2.2.2.2.2.2.2.2.2.2.2.2.2.2.2.2.2.2]; omega

/-- WHAT POINT `t` WRITES BACK is block `t` of `result`. -/
theorem flushed_eq (c : Dev nD) (t : Fin cfg0.N) :
    (dats m 0 c).flushed 11 t = ((cfg0.win 11).blk t).view.read (Elt Ideal) (result m c) := by
  rw [Value.flushed11]
  unfold out0_11
  rw [View.canon_unit_zero hz]
  simp only [View.ld_unit_zero (S := S512x32) hz, View.ld_unit_zero (S := S32x4096) hz, View.ld_unit_zero (S := S1x4096) hz,
    View.ld_unit_zero (S := S4096x32) hz, View.ld_unit_zero (S := S1x32) hz, View.ld_unit_zero (S := S4096x128) hz,
    View.ld_unit_zero (S := S1x128) hz]
  funext y
  obtain ⟨p, j, rfl⟩ : ∃ (p : Fin 512) (j : Fin 128), y = ix2 p j := ⟨y 0, y 1, eq_ix2 y⟩
  show k0_pay1 (F := Ideal) (k0_pay4 (F := Ideal) (iblk m c 2 t) (iblk m c 4 t) (iblk m c 0 t) (iblk m c 3 t) (iblk m c 5 t))
      (k0_pay5 (F := Ideal) (iblk m c 2 t) (iblk m c 4 t) (iblk m c 1 t) (iblk m c 3 t) (iblk m c 5 t))
      (iblk m c 6 t) (iblk m c 7 t) (iblk m c 8 t) (iblk m c 9 t) (iblk m c 10 t) (ix2 p j)
    = result m c (((cfg0.win 11).blk t).view.emb (ix2 p j))
  rw [emb11]
  exact Payload.block_eq_G (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9))
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (rowOf t)
    (rows0 m c t) (rows1 m c t)
    (fun a b => (blk2 m c t a b).trans (congrFun (V_main_arg2 m c) _))
    (fun q => (blk3 m c t 0 q).trans (V_bias1 m c q))
    (fun a b => (blk4 m c t a b).trans (congrFun (V_main_arg4 m c) _))
    (fun q => (blk5 m c t 0 q).trans (V_bias2 m c q))
    (fun a b => (blk6 m c t a b).trans (V_upper m c a b))
    (fun a b => (blk7 m c t a b).trans (V_lower m c a b))
    (fun q => (blk8 m c t 0 q).trans (V_bias3 m c q))
    (fun a b => (blk9 m c t a b).trans (congrFun (V_main_arg8 m c) _))
    (fun q => (blk10 m c t 0 q).trans (V_bias4 m c q))
    p j

/-! ## The 32 blocks tile the result -/

/-- An index of the result is in point `t`'s block iff each coordinate is in the block's range on its axis. -/
theorem mem_blk (t : Fin cfg0.N) (i : S16384x128.Idx) :
    i ∈ ((cfg0.win 11).blk t).view.set ↔ ∀ a : Fin 2, win0_11.index t a * S512x128.size a ≤ (i a).val ∧ (i a).val < win0_11.index t a * S512x128.size a + S512x128.size a := by
  show i ∈ ((View.whole main_v6).slice (win0_11.rect t)).set ↔ _
  rw [View.set_slice_whole, Rect.mem_set_unit]
  exact Iff.rfl

/-- Row `r` of the result lies in the block of point `r / 512`, and every point writes its block back. -/
theorem cover (i : S16384x128.Idx) : ∃ t : Fin cfg0.N, (cfg0.win 11).flush t = true ∧ i ∈ ((cfg0.win 11).blk t).view.set := by
  have hi0 : (i 0).val < 16384 := (i 0).isLt
  have hi1 : (i 1).val < 128 := (i 1).isLt
  have hN : cfg0.N = 32 := N_0
  let t : Fin cfg0.N := ⟨(i 0).val / 512, by rw [hN]; omega⟩
  have q0 : win0_11.index t (0 : Fin 2) = (i 0).val / 512 := (idx_facts t).2.2.2.2.2.2.2.2.2.2.2.2.2.2.2.2.2.2.2.2.2.2.1
  have q1 : win0_11.index t (1 : Fin 2) = 0 := (idx_facts t).2.2.2.2.2.2.2.2.2.2.2.2.2.2.2.2.2.2.2.2.2.2.2
  refine ⟨t, flush0_11 t, ?_⟩
  rw [mem_blk]
  intro a
  match a with
  | ⟨0, _⟩ => show win0_11.index t (0 : Fin 2) * 512 ≤ (i 0).val ∧ (i 0).val < win0_11.index t (0 : Fin 2) * 512 + 512; rw [q0]; omega
  | ⟨1, _⟩ => show win0_11.index t (1 : Fin 2) * 128 ≤ (i 1).val ∧ (i 1).val < win0_11.index t (1 : Fin 2) * 128 + 128; rw [q1]; omega

/-- THE RESULT ARRAY after the run is `result`. -/
theorem final (c : Dev nD) : (dats m 0 c).arrAt 11 cfg0.N = result m c :=
  (dats m 0 c).arrAt_eq_of_cover 11 (result m c) (fun t _ => flushed_eq m c t) cover

/-! ## The run, read -/

/-- Every weakly fair execution ends with the result array at `result` and the ten arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Whole

end
-- ==== Proof.RefValue.lean ====
/-
  The reference's result array as the same function of its ten argument arrays.

  The reference applies the layers to whole arrays. Read at one entry, each matrix product is the sum over its
  contracted index, each bias (broadcast in two steps) is the vector at the column, each `max` against the broadcast
  zero constant is `max · 0`. The joint layer multiplies the [16384, 64] array that lays the two encodings side by
  side: entry `(r, k)` of that array is the first encoding at `(r, k)` for `k < 32` and the second at `(r, k - 32)`
  otherwise, so its product with the 64-row weights, one sum over 64 terms, is the sum over the upper 32 rows
  against the first encoding plus the sum over the lower 32 rows against the second (`Spec.sum_sideBySide`).
-/
import proofs.«155960_g11802570129985_cont_fleet_79_3_alg».proof.Proof.Gen.ReferenceIdeal.Read
import proofs.«155960_g11802570129985_cont_fleet_79_3_alg».proof.Proof.Spec

noncomputable section

namespace Cert.ReferenceIdeal.Whole

open Cert.ReferenceIdeal Cert.ReferenceIdeal.Gen Cert.ReferenceIdeal.Read Idealize.ShloMosaic Idealize.ShloMosaic.ValueIdx

/-- The first layer at `(r, q)`. -/
theorem hidden_apply (x : (⟨S16384x32, .f32⟩ : BufTy).Contents (Elt Ideal)) (W1 : (⟨S32x4096, .f32⟩ : BufTy).Contents (Elt Ideal)) (B1 : (⟨S4096, .f32⟩ : BufTy).Contents (Elt Ideal)) (r : Fin 16384) (q : Fin 4096) :
    val_main_v4 (F := Ideal) x W1 B1 (ix2 r q)
      = Spec.denseRelu (fun a b => W1 (ix2 a b)) (fun c => B1 (ix1 c)) (fun a => x (ix2 r a)) q := by
  have el : ∀ k : Fin 32, lidx_main_v0 (ix2 r q) k = ix2 r k := fun k => funext fun a => Fin.ext (by
    match a with
    | ⟨0, _⟩ => rfl
    | ⟨1, _⟩ => rfl)
  have er : ∀ k : Fin 32, ridx_main_v0 (ix2 r q) k = ix2 k q := fun k => funext fun a => Fin.ext (by
    match a with
    | ⟨0, _⟩ => rfl
    | ⟨1, _⟩ => rfl)
  have eb : idx_main_v1 (idx_main_v2 (ix2 r q)) = ix1 q := funext fun a => Fin.ext (by
    match a with
    | ⟨0, _⟩ => rfl)
  rw [val_main_v4_apply, val_main_v3_apply, val_main_v0_apply, val_main_v2_apply, val_main_v1_apply, val_main_call0_v0_apply,
    val_main_call0_cst_apply]
  simp only [el, er, eb, Ideal.maximumf_def, Ideal.addf_def, Ideal.ofBits_def, Ideal.ofBits_zero_f32]
  rfl

/-- The encoder at `(r, l)`. -/
theorem encoded_apply (x : (⟨S16384x32, .f32⟩ : BufTy).Contents (Elt Ideal)) (W1 : (⟨S32x4096, .f32⟩ : BufTy).Contents (Elt Ideal)) (B1 : (⟨S4096, .f32⟩ : BufTy).Contents (Elt Ideal))
    (W2 : (⟨S4096x32, .f32⟩ : BufTy).Contents (Elt Ideal)) (B2 : (⟨S32, .f32⟩ : BufTy).Contents (Elt Ideal)) (r : Fin 16384) (l : Fin 32) :
    val_main_v9 (F := Ideal) x W1 B1 W2 B2 (ix2 r l)
      = Spec.encode (fun a b => W1 (ix2 a b)) (fun c => B1 (ix1 c)) (fun a b => W2 (ix2 a b)) (fun c => B2 (ix1 c))
          (fun a => x (ix2 r a)) l := by
  have el : ∀ k : Fin 4096, lidx_main_v5 (ix2 r l) k = ix2 r k := fun k => funext fun a => Fin.ext (by
    match a with
    | ⟨0, _⟩ => rfl
    | ⟨1, _⟩ => rfl)
  have er : ∀ k : Fin 4096, ridx_main_v5 (ix2 r l) k = ix2 k l := fun k => funext fun a => Fin.ext (by
    match a with
    | ⟨0, _⟩ => rfl
    | ⟨1, _⟩ => rfl)
  have eb : idx_main_v6 (idx_main_v7 (ix2 r l)) = ix1 l := funext fun a => Fin.ext (by
    match a with
    | ⟨0, _⟩ => rfl)
  rw [val_main_v9_apply, val_main_v8_apply, val_main_v5_apply, val_main_v7_apply, val_main_v6_apply, val_main_call1_v0_apply,
    val_main_call1_cst_apply]
  simp only [el, er, eb, hidden_apply, Ideal.maximumf_def, Ideal.addf_def, Ideal.ofBits_def, Ideal.ofBits_zero_f32]
  rfl

/-- The next-state array goes through the same encoder: the same operations in the same order. -/
theorem second_eq (x : (⟨S16384x32, .f32⟩ : BufTy).Contents (Elt Ideal)) (W1 : (⟨S32x4096, .f32⟩ : BufTy).Contents (Elt Ideal)) (B1 : (⟨S4096, .f32⟩ : BufTy).Contents (Elt Ideal))
    (W2 : (⟨S4096x32, .f32⟩ : BufTy).Contents (Elt Ideal)) (B2 : (⟨S32, .f32⟩ : BufTy).Contents (Elt Ideal)) :
    val_main_v19 (F := Ideal) x W1 B1 W2 B2 = val_main_v9 (F := Ideal) x W1 B1 W2 B2 := rfl

/-- The side-by-side array at `(r, k)`. -/
theorem sideBySide_apply (x0 x1 : (⟨S16384x32, .f32⟩ : BufTy).Contents (Elt Ideal)) (W1 : (⟨S32x4096, .f32⟩ : BufTy).Contents (Elt Ideal)) (B1 : (⟨S4096, .f32⟩ : BufTy).Contents (Elt Ideal))
    (W2 : (⟨S4096x32, .f32⟩ : BufTy).Contents (Elt Ideal)) (B2 : (⟨S32, .f32⟩ : BufTy).Contents (Elt Ideal)) (r : Fin 16384) (k : Fin 64) :
    val_main_v20 (F := Ideal) x0 x1 W1 B1 W2 B2 (ix2 r k)
      = Spec.sideBySide (fun l => val_main_v9 (F := Ideal) x0 W1 B1 W2 B2 (ix2 r l))
          (fun l => val_main_v9 (F := Ideal) x1 W1 B1 W2 B2 (ix2 r l)) k := by
  unfold val_main_v20 Spec.sideBySide
  rw [second_eq]
  by_cases h : k.val < 32
  · rw [dif_pos h]
    exact concatenate_pair_apply_left (t := S16384x64) (s₁ := S16384x32) (s₂ := S16384x32) (1 : Fin 2) _ _
      concatenates_S16384x32_S16384x32_S16384x64_d1 (ix2 r k) rfl
      (ix2 r (⟨k.val, h⟩ : Fin 32)) (fun b => match b with
        | ⟨0, _⟩ => rfl
        | ⟨1, _⟩ => rfl)
  · rw [dif_neg h]
    exact concatenate_pair_apply_right (t := S16384x64) (s₁ := S16384x32) (s₂ := S16384x32) (1 : Fin 2) _ _
      concatenates_S16384x32_S16384x32_S16384x64_d1 (ix2 r k) rfl rfl
      (ix2 r (⟨k.val - 32, by have := k.isLt; omega⟩ : Fin 32)) (fun b hb => match b, hb with
        | ⟨0, _⟩, _ => rfl
        | ⟨1, _⟩, hb => absurd rfl hb)
      (by show k.val - 32 + 32 = k.val; omega)

/-- The joint layer at `(r, k)`: the one sum over 64 splits into the two half sums. -/
theorem joint_apply (x0 x1 : (⟨S16384x32, .f32⟩ : BufTy).Contents (Elt Ideal)) (W1 : (⟨S32x4096, .f32⟩ : BufTy).Contents (Elt Ideal)) (B1 : (⟨S4096, .f32⟩ : BufTy).Contents (Elt Ideal))
    (W2 : (⟨S4096x32, .f32⟩ : BufTy).Contents (Elt Ideal)) (B2 : (⟨S32, .f32⟩ : BufTy).Contents (Elt Ideal)) (W3 : (⟨S64x4096, .f32⟩ : BufTy).Contents (Elt Ideal)) (B3 : (⟨S4096, .f32⟩ : BufTy).Contents (Elt Ideal))
    (r : Fin 16384) (k : Fin 4096) :
    val_main_v25 (F := Ideal) x0 x1 W1 B1 W2 B2 W3 B3 (ix2 r k)
      = Spec.joint (Spec.upper fun a b => W3 (ix2 a b)) (Spec.lower fun a b => W3 (ix2 a b)) (fun c => B3 (ix1 c))
          (Spec.encode (fun a b => W1 (ix2 a b)) (fun c => B1 (ix1 c)) (fun a b => W2 (ix2 a b)) (fun c => B2 (ix1 c)) (fun a => x0 (ix2 r a)))
          (Spec.encode (fun a b => W1 (ix2 a b)) (fun c => B1 (ix1 c)) (fun a b => W2 (ix2 a b)) (fun c => B2 (ix1 c)) (fun a => x1 (ix2 r a)))
          k := by
  have el : ∀ l : Fin 64, lidx_main_v21 (ix2 r k) l = ix2 r l := fun l => funext fun a => Fin.ext (by
    match a with
    | ⟨0, _⟩ => rfl
    | ⟨1, _⟩ => rfl)
  have er : ∀ l : Fin 64, ridx_main_v21 (ix2 r k) l = ix2 l k := fun l => funext fun a => Fin.ext (by
    match a with
    | ⟨0, _⟩ => rfl
    | ⟨1, _⟩ => rfl)
  have eb : idx_main_v22 (idx_main_v23 (ix2 r k)) = ix1 k := funext fun a => Fin.ext (by
    match a with
    | ⟨0, _⟩ => rfl)
  rw [val_main_v25_apply, val_main_v24_apply, val_main_v21_apply, val_main_v23_apply, val_main_v22_apply, val_main_call4_v0_apply,
    val_main_call4_cst_apply]
  simp only [el, er, eb, sideBySide_apply, Ideal.maximumf_def, Ideal.addf_def, Ideal.ofBits_def, Ideal.ofBits_zero_f32]
  rw [Spec.sum_sideBySide (fun a b => W3 (ix2 a b))]
  simp only [encoded_apply]
  rfl

/-- The result at `(r, j)`. -/
theorem result_apply (x0 x1 : (⟨S16384x32, .f32⟩ : BufTy).Contents (Elt Ideal)) (W1 : (⟨S32x4096, .f32⟩ : BufTy).Contents (Elt Ideal)) (B1 : (⟨S4096, .f32⟩ : BufTy).Contents (Elt Ideal))
    (W2 : (⟨S4096x32, .f32⟩ : BufTy).Contents (Elt Ideal)) (B2 : (⟨S32, .f32⟩ : BufTy).Contents (Elt Ideal)) (W3 : (⟨S64x4096, .f32⟩ : BufTy).Contents (Elt Ideal)) (B3 : (⟨S4096, .f32⟩ : BufTy).Contents (Elt Ideal))
    (W4 : (⟨S4096x128, .f32⟩ : BufTy).Contents (Elt Ideal)) (B4 : (⟨S128, .f32⟩ : BufTy).Contents (Elt Ideal)) (r : Fin 16384) (j : Fin 128) :
    val_main_v29 (F := Ideal) x0 x1 W1 B1 W2 B2 W3 B3 W4 B4 (ix2 r j) = Spec.G x0 x1 W1 B1 W2 B2 W3 B3 W4 B4 (ix2 r j) := by
  have el : ∀ k : Fin 4096, lidx_main_v26 (ix2 r j) k = ix2 r k := fun k => funext fun a => Fin.ext (by
    match a with
    | ⟨0, _⟩ => rfl
    | ⟨1, _⟩ => rfl)
  have er : ∀ k : Fin 4096, ridx_main_v26 (ix2 r j) k = ix2 k j := fun k => funext fun a => Fin.ext (by
    match a with
    | ⟨0, _⟩ => rfl
    | ⟨1, _⟩ => rfl)
  have eb : idx_main_v27 (idx_main_v28 (ix2 r j)) = ix1 j := funext fun a => Fin.ext (by
    match a with
    | ⟨0, _⟩ => rfl)
  rw [val_main_v29_apply, val_main_v26_apply, val_main_v28_apply, val_main_v27_apply]
  simp only [el, er, eb, joint_apply, Ideal.addf_def]
  rfl

/-- The reference's result term is `Spec.G` of its arguments. -/
theorem result_eq (x0 x1 : (⟨S16384x32, .f32⟩ : BufTy).Contents (Elt Ideal)) (W1 : (⟨S32x4096, .f32⟩ : BufTy).Contents (Elt Ideal)) (B1 : (⟨S4096, .f32⟩ : BufTy).Contents (Elt Ideal))
    (W2 : (⟨S4096x32, .f32⟩ : BufTy).Contents (Elt Ideal)) (B2 : (⟨S32, .f32⟩ : BufTy).Contents (Elt Ideal)) (W3 : (⟨S64x4096, .f32⟩ : BufTy).Contents (Elt Ideal)) (B3 : (⟨S4096, .f32⟩ : BufTy).Contents (Elt Ideal))
    (W4 : (⟨S4096x128, .f32⟩ : BufTy).Contents (Elt Ideal)) (B4 : (⟨S128, .f32⟩ : BufTy).Contents (Elt Ideal)) :
    val_main_v29 (F := Ideal) x0 x1 W1 B1 W2 B2 W3 B3 W4 B4 = Spec.G x0 x1 W1 B1 W2 B2 W3 B3 W4 B4 := by
  funext i
  obtain ⟨r, j, rfl⟩ : ∃ (r : Fin 16384) (j : Fin 128), i = ix2 r j := ⟨i 0, i 1, eq_ix2 i⟩
  exact result_apply x0 x1 W1 B1 W2 B2 W3 B3 W4 B4 r j

end Cert.ReferenceIdeal.Whole

end
-- ==== Proof.lean ====
/-
  The certificate of a fused two-tower network kernel against its plain reference.

  Both programs map two [16384, 32] state arrays and eight parameter arrays to a [16384, 128] array. Each state row
  is encoded by two affine layers with `max · 0` (32 → 4096 → 32); the two encodings of a row meet in a joint layer of
  4096 units, again with `max · 0`, whose [64, 4096] weights act by their upper 32 rows on the first encoding and by
  their lower 32 rows on the second; a last affine layer gives 128 outputs. Row `r` of the result depends only on
  row `r` of the two state arrays (`Cert.Spec.G`).

  The kernel works on 512 rows per grid point, with every matrix product taken in a narrower float format and
  accumulated from zero, and forms the joint layer as two products, one per half of the weights, added together.
  The reference lays the two encodings side by side as one [16384, 64] array and takes one product with all 64 rows.
  At the exact values a change of float format is the identity and a product into zero is the plain sum over the
  contracted index, so the two differ only in how one finite sum is grouped: a sum over 64 terms against the sum of
  its first 32 and of its last 32 terms. That holds in any commutative additive monoid, the extended reals with
  their infinities included, so the inputs' finiteness is never used.

  The kernel's run with its result array named comes from its generated value leg, the reference's run and its
  stages read at an index from its generated run; written by hand are the kernel body's arithmetic at an entry, the
  passage from blocks to the array, the reference's side-by-side array at an entry, and the sum's regrouping.
  The idealization rewrote no operation, so the idealized kernel is the kernel's own text read at the exact values.
-/
import proofs.«155960_g11802570129985_cont_fleet_79_3_alg».proof.Defs
import proofs.«155960_g11802570129985_cont_fleet_79_3_alg».proof.Proof.Gen.Kernel
import proofs.«155960_g11802570129985_cont_fleet_79_3_alg».proof.Proof.Gen.Kernel.Skeleton
import proofs.«155960_g11802570129985_cont_fleet_79_3_alg».proof.Proof.Gen.Kernel.Launch
import proofs.«155960_g11802570129985_cont_fleet_79_3_alg».proof.Proof.Gen.Kernel.Points
import proofs.«155960_g11802570129985_cont_fleet_79_3_alg».proof.Proof.Gen.Kernel.Frame
import proofs.«155960_g11802570129985_cont_fleet_79_3_alg».proof.Proof.Gen.KernelIdeal
import proofs.«155960_g11802570129985_cont_fleet_79_3_alg».proof.Proof.Gen.KernelIdeal.Skeleton
import proofs.«155960_g11802570129985_cont_fleet_79_3_alg».proof.Proof.Gen.KernelIdeal.Launch
import proofs.«155960_g11802570129985_cont_fleet_79_3_alg».proof.Proof.Gen.KernelIdeal.Points
import proofs.«155960_g11802570129985_cont_fleet_79_3_alg».proof.Proof.Gen.KernelIdeal.Frame
import proofs.«155960_g11802570129985_cont_fleet_79_3_alg».proof.Proof.Gen.ReferenceIdeal
import proofs.«155960_g11802570129985_cont_fleet_79_3_alg».proof.Proof.Gen.Pre_finite_inputs
import proofs.«155960_g11802570129985_cont_fleet_79_3_alg».proof.Proof.Gen.KernelIdeal.Value
import proofs.«155960_g11802570129985_cont_fleet_79_3_alg».proof.Proof.Gen.ReferenceIdeal.Run
import proofs.«155960_g11802570129985_cont_fleet_79_3_alg».proof.Proof.Gen.ReferenceIdeal.Read
import proofs.«155960_g11802570129985_cont_fleet_79_3_alg».proof.Proof.KernelValue
import proofs.«155960_g11802570129985_cont_fleet_79_3_alg».proof.Proof.RefValue
import Idealize.ShloMosaic.Adequacy
import Idealize.ShloMosaic.Init

noncomputable section

namespace Cert.Proof

open Idealize.ShloMosaic Idealize.SL.Sem

/-- Each program terminates without a fault and leaves its arguments as launched: the two kernels by their
    generated frames, the reference by its generated run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the exact values the kernel's result array ends at `Spec.G` of its arguments, and so does the
    reference's, of arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.Whole.result_eq]
  obtain ⟨h0, h1, h2, h3, h4, h5, h6, h7, h8, h9⟩ := hagree c
  rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
